-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S1600000x64 : Shape := ⟨2, ![1600000, 64]⟩
abbrev S256x64 : Shape := ⟨2, ![256, 64]⟩
abbrev S64 : Shape := ⟨1, ![64]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S128x2 .f32) (main_arg7 : FVec F S2 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1600000x128 .f32) (main_arg3 : FVec F S1600000x64 .f32) (main_arg4 : FVec F S256x64 .f32) (main_arg5 : FVec F S64 .f32) (main_arg6 : FVec F S128x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1600000x64 .f32 := Host.absf main_arg3
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S1600000x64 : Shape := ⟨2, ![1600000, 64]⟩
abbrev S256x64 : Shape := ⟨2, ![256, 64]⟩
abbrev S64 : Shape := ⟨1, ![64]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x64 : Shape := ⟨2, ![128, 64]⟩
abbrev S6400x128 : Shape := ⟨2, ![6400, 128]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S64x2 : Shape := ⟨2, ![64, 2]⟩
abbrev S6400x64 : Shape := ⟨2, ![6400, 64]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 64
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S1600000x64, .f32⟩
  | .hbm, ⟨4, _⟩ => ⟨S256x64, .f32⟩
  | .hbm, ⟨5, _⟩ => ⟨S64, .f32⟩
  | .hbm, ⟨6, _⟩ => ⟨S128x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S128x64, .f32⟩
  | .hbm, ⟨25, _⟩ => ⟨S128x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x64, .f32⟩
  | .hbm, ⟨44, _⟩ => ⟨S64x2, .f32⟩
  | .hbm, ⟨45, _⟩ => ⟨S64x2, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x2, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x64, .f32⟩
  | .local _ .vmem, ⟨11, _⟩ => ⟨S128x64, .f32⟩
  | .local _ .vmem, ⟨12, _⟩ => ⟨S64, .f32⟩
  | .local _ .vmem, ⟨13, _⟩ => ⟨S5000x64, .f32⟩
  | .local _ .vmem, ⟨14, _⟩ => ⟨S5000x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S6400x64, .f32⟩
  | .local _ .vmem, ⟨19, _⟩ => ⟨S6400x64, .f32⟩
  | .local _ .vmem, ⟨20, _⟩ => ⟨S6400x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x2, .f32⟩
  | .local _ .vmem, ⟨26, _⟩ => ⟨S64x2, .f32⟩
  | .local _ .vmem, ⟨27, _⟩ => ⟨S2, .f32⟩
  | .local _ .vmem, ⟨28, _⟩ => ⟨S5000x2, .f32⟩
  | .local _ .vmem, ⟨29, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S256x64_S128x64_0_0 : S256x64.Slices ![0, 0] S128x64
  slices_S256x64_S128x64_128_0 : S256x64.Slices ![128, 0] S128x64
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S128x2_S64x2_0_0 : S128x2.Slices ![0, 0] S64x2
  slices_S128x2_S64x2_64_0 : S128x2.Slices ![64, 0] S64x2
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S1600000x64.size a
  hwx2_0 : ∀ i : grid2.Coords, EltTy.bits .f32 = 32 ∨ (Rect.block (s := S1600000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S1600000x64.size a
  hwx2_1 : ∀ i : grid2.Coords, EltTy.bits .f32 = 32 ∨ (Rect.block (s := S1600000x64) S6400x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S1600000x64.size a
  hwx2_2 : ∀ i : grid2.Coords, EltTy.bits .f32 = 32 ∨ (Rect.block (s := S1600000x64) S6400x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x2.size a ≤ S64x2.size a
  hwx3_2 : ∀ i : grid3.Coords, EltTy.bits .f32 = 32 ∨ (Rect.block (s := S64x2) S64x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x2.size a ≤ S100000x2.size a
  hwx3_5 : ∀ i : grid3.Coords, EltTy.bits .f32 = 32 ∨ (Rect.block (s := S100000x2) S5000x2.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v20) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S6400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S64x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S5000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S1600000x64 : Shape := ⟨2, ![1600000, 64]⟩
abbrev S256x64 : Shape := ⟨2, ![256, 64]⟩
abbrev S64 : Shape := ⟨1, ![64]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x256 : Shape := ⟨2, ![100000, 256]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S1600000x64, .f32⟩
  | .hbm, ⟨4, _⟩ => ⟨S256x64, .f32⟩
  | .hbm, ⟨5, _⟩ => ⟨S64, .f32⟩
  | .hbm, ⟨6, _⟩ => ⟨S128x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x256, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x128, .f32⟩
  | .hbm, ⟨77, _⟩ => ⟨S100000x2, .f32⟩
  | .hbm, ⟨78, _⟩ => ⟨S1x2, .f32⟩
  | .hbm, ⟨79, _⟩ => ⟨S100000x2, .f32⟩
  | .hbm, ⟨80, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.MulValue0.lean ====
/-
  Region 0 of the kernel's program: the edge-wise product. Each grid point multiplies one block of 6400 edge rows of the
  gathered node features by the same block of the edge attributes, and the 250 blocks tile the 1600000 rows; so whatever
  the two operand arrays hold when the region is entered, the result array ends at their elementwise product.
-/
import proofs.«180362_j1915555414503_1_alg».proof.Proof.Gen.KernelIdeal.Frame
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zero_off2 : (![0, 0] : Fin 2 → Nat) = fun _ => 0 := funext fun a => by fin_cases a <;> rfl

/-- The elementwise product of two edge arrays of 128 features. -/
abbrev edgeProd128 (a b : S1600000x128.Idx → Elt F .f32) : S1600000x128.Idx → Elt F .f32 := fun i => FloatOps.mulf (a i) (b i)

/-- The body's payload is the product of its two loaded blocks (the cast between equal shapes is the identity). -/
theorem pay0_eq (x0 x1 : Vec F S6400x128 .f32) : k0_pay1 x0 x1 = mulf x0 x1 := by
  unfold k0_pay1
  rw [shapeCast_self]

/-- All three windows move together: at point `t` each one's block index is `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the region finds them. -/
theorem flushed0_eq (c : Dev nD) (t : Fin cfg0.N) :
    (dat0 V c).flushed 2 t = ((cfg0.win 2).blk t).view.read (Elt F) (edgeProd128 (V c main_v20) (V c main_arg2)) := by
  show (cfg0.win 2).cut (grid0.coords t) ((dat0 V c).after 2 t) = _
  rw [after0_2]
  unfold out0_2
  rw [View.canon_unit_zero zero_off2]
  simp only [View.ld_unit_zero (S := S6400x128) zero_off2]
  rw [pay0_eq]
  obtain ⟨e0, e1, e2, e3, e4, e5⟩ := idx_facts0 t
  funext j
  show FloatOps.mulf (V c main_v20 (((cfg0.win 0).blk t).view.emb j)) (V c main_arg2 (((cfg0.win 1).blk t).view.emb j))
    = FloatOps.mulf (V c main_v20 (((cfg0.win 2).blk t).view.emb j)) (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 6400 + 1 * (j 0).val = win0_2.index t (0 : Fin 2) * 6400 + 1 * (j 0).val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range on its axis. -/
theorem mem_blk0 (t : Fin cfg0.N) (i : S1600000x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v21).slice (win0_2.rect t)).set ↔ _
  rw [View.set_slice_whole, Rect.mem_set_unit]
  exact Iff.rfl

/-- Every edge row lies in some point's block: row `r` in the block of point `r / 6400`. -/
theorem cover0 (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : cfg0.N = 250 := N_0
  let t : Fin cfg0.N := ⟨(i 0).val / 6400, by rw [hN]; omega⟩
  obtain ⟨e0, e1, e2, e3, e4, e5⟩ := idx_facts0 t
  have ht : t.val = (i 0).val / 6400 := rfl
  refine ⟨t, flush0_2 t, ?_⟩
  rw [mem_blk0]
  intro a
  match a with
  | ⟨0, _⟩ => show win0_2.index t (0 : Fin 2) * 6400 ≤ (i 0).val ∧ (i 0).val < win0_2.index t (0 : Fin 2) * 6400 + 6400; omega
  | ⟨1, _⟩ => show win0_2.index t (1 : Fin 2) * 128 ≤ (i 1).val ∧ (i 1).val < win0_2.index t (1 : Fin 2) * 128 + 128; omega

/-- The result array after the region: the product of the two operand arrays as entered. -/
theorem arr0 (c : Dev nD) : (dat0 V c).arrAt 2 cfg0.N = edgeProd128 (V c main_v20) (V c main_arg2) :=
  (dat0 V c).arrAt_eq_of_cover 2 _ (fun t _ => flushed0_eq V c t) cover0

end Cert.KernelIdeal.Val

end
-- ==== Proof.MulValue2.lean ====
/-
  Region 2 of the kernel's program: the edge-wise product. Each grid point multiplies one block of 6400 edge rows of the
  gathered hidden features by the same block of the edge attributes, and the 250 blocks tile the 1600000 rows; so whatever
  the two operand arrays hold when the region is entered, the result array ends at their elementwise product.
-/
import proofs.«180362_j1915555414503_1_alg».proof.Proof.Gen.KernelIdeal.Frame
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zero_off2' : (![0, 0] : Fin 2 → Nat) = fun _ => 0 := funext fun a => by fin_cases a <;> rfl

/-- The elementwise product of two edge arrays of 64 features. -/
abbrev edgeProd64 (a b : S1600000x64.Idx → Elt F .f32) : S1600000x64.Idx → Elt F .f32 := fun i => FloatOps.mulf (a i) (b i)

/-- The body's payload is the product of its two loaded blocks (the cast between equal shapes is the identity). -/
theorem pay2_eq (x0 x1 : Vec F S6400x64 .f32) : k2_pay1 x0 x1 = mulf x0 x1 := by
  unfold k2_pay1
  rw [shapeCast_self]

/-- All three windows move together: at point `t` each one's block index is `(t, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two operand arrays as the region finds them. -/
theorem flushed2_eq (c : Dev nD) (t : Fin cfg2.N) :
    (dat2 V c).flushed 2 t = ((cfg2.win 2).blk t).view.read (Elt F) (edgeProd64 (V c main_v37) (V c main_arg3)) := by
  show (cfg2.win 2).cut (grid2.coords t) ((dat2 V c).after 2 t) = _
  rw [after2_2]
  unfold out2_2
  rw [View.canon_unit_zero zero_off2']
  simp only [View.ld_unit_zero (S := S6400x64) zero_off2']
  rw [pay2_eq]
  obtain ⟨e0, e1, e2, e3, e4, e5⟩ := idx_facts2 t
  funext j
  show FloatOps.mulf (V c main_v37 (((cfg2.win 0).blk t).view.emb j)) (V c main_arg3 (((cfg2.win 1).blk t).view.emb j))
    = FloatOps.mulf (V c main_v37 (((cfg2.win 2).blk t).view.emb j)) (V c main_arg3 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 6400 + 1 * (j 0).val = win2_2.index t (0 : Fin 2) * 6400 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 6400 + 1 * (j 0).val = win2_2.index t (0 : Fin 2) * 6400 + 1 * (j 0).val; omega
    | ⟨1, _⟩ => show win2_1.index t (1 : Fin 2) * 64 + 1 * (j 1).val = win2_2.index t (1 : Fin 2) * 64 + 1 * (j 1).val; omega
  rw [h0, h1]

/-- An index of the result array is in point `t`'s block iff each coordinate is in the block's range on its axis. -/
theorem mem_blk2 (t : Fin cfg2.N) (i : S1600000x64.Idx) :
    i ∈ ((cfg2.win 2).blk t).view.set ↔ ∀ a : Fin 2, win2_2.index t a * S6400x64.size a ≤ (i a).val ∧ (i a).val < win2_2.index t a * S6400x64.size a + S6400x64.size a := by
  show i ∈ ((View.whole main_v38).slice (win2_2.rect t)).set ↔ _
  rw [View.set_slice_whole, Rect.mem_set_unit]
  exact Iff.rfl

/-- Every edge row lies in some point's block: row `r` in the block of point `r / 6400`. -/
theorem cover2 (i : S1600000x64.Idx) :
    ∃ t : Fin cfg2.N, (cfg2.win 2).flush t = true ∧ i ∈ ((cfg2.win 2).blk t).view.set := by
  have hi0 : (i 0).val < 1600000 := (i 0).isLt
  have hi1 : (i 1).val < 64 := (i 1).isLt
  have hN : cfg2.N = 250 := N_2
  let t : Fin cfg2.N := ⟨(i 0).val / 6400, by rw [hN]; omega⟩
  obtain ⟨e0, e1, e2, e3, e4, e5⟩ := idx_facts2 t
  have ht : t.val = (i 0).val / 6400 := rfl
  refine ⟨t, flush2_2 t, ?_⟩
  rw [mem_blk2]
  intro a
  match a with
  | ⟨0, _⟩ => show win2_2.index t (0 : Fin 2) * 6400 ≤ (i 0).val ∧ (i 0).val < win2_2.index t (0 : Fin 2) * 6400 + 6400; omega
  | ⟨1, _⟩ => show win2_2.index t (1 : Fin 2) * 64 ≤ (i 1).val ∧ (i 1).val < win2_2.index t (1 : Fin 2) * 64 + 64; omega

/-- The result array after the region: the product of the two operand arrays as entered. -/
theorem arr2 (c : Dev nD) : (dat2 V c).arrAt 2 cfg2.N = edgeProd64 (V c main_v37) (V c main_arg3) :=
  (dat2 V c).arrAt_eq_of_cover 2 _ (fun t _ => flushed2_eq V c t) cover2

end Cert.KernelIdeal.Val

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  The mathematics the two programs share, over the extended reals and free of either program's text.

  One layer of the network is, at node p and output feature q,
      (Σ_k x(p,k)·Wx(k,q)) + (Σ_k a(p,k)·Wa(k,q)) + b(q),
  where x is the node's own features, a the mean of its neighbours' messages, and Wx, Wa the upper and lower halves of the
  layer's weight matrix. The kernel computes the two contractions apart; the reference contracts the joined row [x | a]
  against the whole matrix: the joined sum splits at the seam. The mean is a sum scaled by a count: the kernel multiplies by
  the reciprocal 1 / max(cnt, 1) while the reference divides by max(cnt, 1); the divisor is at least one, so it is not zero and
  both are the product with its inverse.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Entry (p, q) of x·Wx + a·Wa + b: two contractions over the C shared features, then the bias. -/
def affine {N C D : Nat} (x a : (⟨2, ![N, C]⟩ : Shape).Idx → EReal) (wx wa : (⟨2, ![C, D]⟩ : Shape).Idx → EReal)
    (b : (⟨1, ![D]⟩ : Shape).Idx → EReal) (p : Fin N) (q : Fin D) : EReal :=
  (∑ k : Fin C, x (ix2 p k) * wx (ix2 k q)) + (∑ k : Fin C, a (ix2 p k) * wa (ix2 k q)) + b (ix1 q)

/-- The layer's entry depends only on row p of x and of a, on column q of the two weight halves and on entry q of the bias. -/
theorem affine_congr {N N' C D D' : Nat} {x a : (⟨2, ![N, C]⟩ : Shape).Idx → EReal} {x' a' : (⟨2, ![N', C]⟩ : Shape).Idx → EReal}
    {wx wa : (⟨2, ![C, D]⟩ : Shape).Idx → EReal} {wx' wa' : (⟨2, ![C, D']⟩ : Shape).Idx → EReal}
    {b : (⟨1, ![D]⟩ : Shape).Idx → EReal} {b' : (⟨1, ![D']⟩ : Shape).Idx → EReal}
    {p : Fin N} {p' : Fin N'} {q : Fin D} {q' : Fin D'}
    (hx : ∀ k, x (ix2 p k) = x' (ix2 p' k)) (ha : ∀ k, a (ix2 p k) = a' (ix2 p' k))
    (hwx : ∀ k, wx (ix2 k q) = wx' (ix2 k q')) (hwa : ∀ k, wa (ix2 k q) = wa' (ix2 k q'))
    (hb : b (ix1 q) = b' (ix1 q')) :
    affine x a wx wa b p q = affine x' a' wx' wa' b' p' q' := by
  unfold affine
  simp only [hx, ha, hwx, hwa, hb]

/-- A layer without activation, as an array over nodes and output features. -/
def layer {N C D : Nat} (x a : (⟨2, ![N, C]⟩ : Shape).Idx → EReal) (wx wa : (⟨2, ![C, D]⟩ : Shape).Idx → EReal)
    (b : (⟨1, ![D]⟩ : Shape).Idx → EReal) : (⟨2, ![N, D]⟩ : Shape).Idx → EReal :=
  fun i => affine x a wx wa b (i 0) (i 1)

/-- A layer followed by the rectifier max(·, 0), as an array over nodes and output features. -/
def layerRelu {N C D : Nat} (x a : (⟨2, ![N, C]⟩ : Shape).Idx → EReal) (wx wa : (⟨2, ![C, D]⟩ : Shape).Idx → EReal)
    (b : (⟨1, ![D]⟩ : Shape).Idx → EReal) : (⟨2, ![N, D]⟩ : Shape).Idx → EReal :=
  fun i => max (affine x a wx wa b (i 0) (i 1)) 0

/-- A divisor that is a maximum with one is not zero. -/
theorem max_one_ne_zero (a : EReal) : max a 1 ≠ 0 :=
  (lt_of_lt_of_le zero_lt_one (le_max_right a 1)).ne'

/-- Scaling by the reciprocal of max(a, 1) is dividing by it: both are the product with its inverse, the divisor being
    at least one and so not zero. -/
theorem mul_recip_eq_div (s a : EReal) : s * Ideal.div 1 (max a 1) = Ideal.div s (max a 1) := by
  unfold Ideal.div
  rw [if_neg (max_one_ne_zero a), if_neg (max_one_ne_zero a), one_mul]

/-- A sum over C + C positions is the sum over the first C plus the sum over the last C. -/
theorem sum_seam {C : Nat} (f : Fin (C + C) → EReal) :
    ∑ k : Fin (C + C), f k = (∑ k : Fin C, f (Fin.castAdd C k)) + ∑ k : Fin C, f (Fin.natAdd C k) :=
  Fin.sum_univ_add f

end Cert.Spec

end
-- ==== Proof.LinPay.lean ====
/-
  The two linear bodies read at an entry. On the extended reals rounding to bf16 is the identity, a matrix-unit product
  into the zero accumulator is the plain sum of products, and the bias row is broadcast over the block's rows; so the body's
  stored value at (p, q) is the layer's entry (p, q) of its five loaded blocks — under a maximum with zero in the first
  layer, bare in the second.
-/
import proofs.«180362_j1915555414503_1_alg».proof.Proof.Gen.KernelIdeal.Skeleton
import proofs.«180362_j1915555414503_1_alg».proof.Proof.LibRowDims
import proofs.«180362_j1915555414503_1_alg».proof.Proof.Spec
import Idealize.ShloMosaic.Lib.Pipeline.Value
import Idealize.ShloMosaic.Lib.ValueLayout

noncomputable section

open scoped BigOperators

namespace Cert.KernelIdeal.Val

open Cert.KernelIdeal Cert.KernelIdeal.Gen
open Idealize.ShloMosaic Idealize.ShloMosaic.TcCoe Idealize.ShloMosaic.ValueIdx

/-- The first layer's contraction is the plain one: 5000 rows, 128 shared features, 64 outputs. -/
theorem dot1_plain : dot_S5000x128_S128x64_S5000x64_1_0_0_1_n_n = DotDims.plain 5000 128 64 := rfl

/-- The second layer's contraction is the plain one: 5000 rows, 64 shared features, 2 outputs. -/
theorem dot3_plain : dot_S5000x64_S64x2_S5000x2_1_0_0_1_n_n = DotDims.plain 5000 64 2 := rfl

/-- The first layer's body at (p, q): the layer's entry of its loaded blocks, under a maximum with zero. -/
theorem pay1_apply (x0 x1 : Vec Ideal S5000x128 .f32) (w0 w1 : Vec Ideal S128x64 .f32) (b : Vec Ideal S64 .f32)
    (p : Fin 5000) (q : Fin 64) :
    k1_pay1 x0 x1 w0 w1 b (ix2 p q) = max (Spec.affine x0 x1 w0 w1 b p q) 0 := by
  unfold k1_pay1
  simp only [shapeCast_self]
  rw [dot1_plain]
  rw [maximumf_apply, addf_apply, addf_apply, broadcast_apply]
  unfold matmul
  rw [RowDims.matmul_plain_zero_apply, RowDims.matmul_plain_zero_apply]
  rw [broadcastTo_1b_ab_apply, shapeCast_a_1a_apply]
  unfold Spec.affine
  simp only [truncf_apply]
  exact congrArg (max _) (show (FloatOps.ofBits (F := Ideal) .f32 0x00000000#32 : EReal) = 0 from Ideal.ofBits_zero_f32)

/-- The second layer's body at (p, q): the layer's entry of its loaded blocks. -/
theorem pay3_apply (x0 x1 : Vec Ideal S5000x64 .f32) (w0 w1 : Vec Ideal S64x2 .f32) (b : Vec Ideal S2 .f32)
    (p : Fin 5000) (q : Fin 2) :
    k3_pay1 x0 x1 w0 w1 b (ix2 p q) = Spec.affine x0 x1 w0 w1 b p q := by
  unfold k3_pay1
  simp only [shapeCast_self]
  rw [dot3_plain]
  rw [addf_apply, addf_apply]
  unfold matmul
  rw [RowDims.matmul_plain_zero_apply, RowDims.matmul_plain_zero_apply]
  rw [broadcastTo_1b_ab_apply, shapeCast_a_1a_apply]
  unfold Spec.affine
  simp only [truncf_apply]

end Cert.KernelIdeal.Val

end
-- ==== Proof.LinValue1.lean ====
/-
  Region 1 of the kernel's program: the first layer's projection. Each grid point takes one block of 5000 node rows of
  the node features and of the aggregated messages, the two weight halves and the bias whole, and stores the layer's entries
  for those rows; the 20 blocks tile the 100000 rows. So whatever the five operand arrays hold when the region is entered,
  the result array ends at the layer of those arrays, under the rectifier.
-/
import proofs.«180362_j1915555414503_1_alg».proof.Proof.Gen.KernelIdeal.Frame
import proofs.«180362_j1915555414503_1_alg».proof.Proof.LinPay
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem lin1_off2 : (![0, 0] : Fin 2 → Nat) = fun _ => 0 := funext fun a => by fin_cases a <;> rfl
theorem lin1_off1 : (![0] : Fin 1 → Nat) = fun _ => 0 := funext fun a => by fin_cases a; rfl

/-- The row windows (node features, aggregated messages, result) sit at block (t, 0) at point `t`; the weight halves and
    the bias are one block each, at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the layer of the five operand arrays as the region finds them. -/
theorem flushed1_eq (c : Dev nD) (t : Fin cfg1.N) :
    (dat1 V c).flushed 5 t = ((cfg1.win 5).blk t).view.read (Elt Ideal)
      (Spec.layerRelu (V c main_arg0) (V c main_v27) (V c main_v12) (V c main_v13) (V c main_arg5)) := by
  show (cfg1.win 5).cut (grid1.coords t) ((dat1 V c).after 5 t) = _
  rw [after1_5]
  unfold out1_5
  rw [View.canon_unit_zero lin1_off2]
  simp only [View.ld_unit_zero (S := S5000x128) lin1_off2, View.ld_unit_zero (S := S128x64) lin1_off2,
    View.ld_unit_zero (S := S64) lin1_off1]
  obtain ⟨e00, e01, e10, e11, e20, e21, e30, e31, e40, e50, e51⟩ := idx_facts1 t
  have hN : cfg1.N = 20 := N_1
  have htlt : t.val < 20 := hN ▸ t.isLt
  funext j
  obtain ⟨p, q, rfl⟩ : ∃ (p : Fin 5000) (q : Fin 64), j = ix2 p q := ⟨j 0, j 1, eq_ix2 j⟩
  have hp : p.val < 5000 := p.isLt
  have hP : t.val * 5000 + p.val < 100000 := by omega
  -- the block's row p is the array's row t·5000 + p; its column is the array's
  have e5 : ((cfg1.win 5).blk t).view.emb (ix2 p q) = ix2 (⟨t.val * 5000 + p.val, hP⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  have e0 : ∀ k : Fin 128, ((cfg1.win 0).blk t).view.emb (ix2 p k) = ix2 (⟨t.val * 5000 + p.val, hP⟩ : Fin 100000) k := by
    intro k; funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have e1 : ∀ k : Fin 128, ((cfg1.win 1).blk t).view.emb (ix2 p k) = ix2 (⟨t.val * 5000 + p.val, hP⟩ : Fin 100000) k := by
    intro k; funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  have e2 : ∀ k : Fin 128, ((cfg1.win 2).blk t).view.emb (ix2 k q) = ix2 k q := by
    intro k; funext a; apply Fin.ext
    match a with
    | ⟨0, _⟩ => show win1_2.index t (0 : Fin 2) * 128 + 1 * k.val = k.val; omega
    | ⟨1, _⟩ => show win1_2.index t (1 : Fin 2) * 64 + 1 * q.val = q.val; omega
  have e3 : ∀ k : Fin 128, ((cfg1.win 3).blk t).view.emb (ix2 k q) = ix2 k q := by
    intro k; funext a; apply Fin.ext
    match a with
    | ⟨0, _⟩ => show win1_3.index t (0 : Fin 2) * 128 + 1 * k.val = k.val; omega
    | ⟨1, _⟩ => show win1_3.index t (1 : Fin 2) * 64 + 1 * q.val = q.val; omega
  have e4 : ((cfg1.win 4).blk t).view.emb (ix1 q) = ix1 q := by
    funext a; apply Fin.ext
    match a with
    | ⟨0, _⟩ => show win1_4.index t (0 : Fin 1) * 64 + 1 * q.val = q.val; omega
  show k1_pay1 (iblk1 V c 0 t) (iblk1 V c 1 t) (iblk1 V c 2 t) (iblk1 V c 3 t) (iblk1 V c 4 t) (ix2 p q)
    = Spec.layerRelu (V c main_arg0) (V c main_v27) (V c main_v12) (V c main_v13) (V c main_arg5) (((cfg1.win 5).blk t).view.emb (ix2 p q))
  rw [e5]
  refine (pay1_apply (iblk1 V c 0 t) (iblk1 V c 1 t) (iblk1 V c 2 t) (iblk1 V c 3 t) (iblk1 V c 4 t) p q).trans ?_
  refine congrArg (fun z => max z 0) (Spec.affine_congr (fun k => ?_) (fun k => ?_) (fun k => ?_) (fun k => ?_) ?_)
  · show V c main_arg0 (((cfg1.win 0).blk t).view.emb (ix2 p k)) = _
    rw [e0 k]
  · show V c main_v27 (((cfg1.win 1).blk t).view.emb (ix2 p k)) = _
    rw [e1 k]
  · show V c main_v12 (((cfg1.win 2).blk t).view.emb (ix2 k q)) = _
    rw [e2 k]
  · show V c main_v13 (((cfg1.win 3).blk t).view.emb (ix2 k q)) = _
    rw [e3 k]
  · show V c main_arg5 (((cfg1.win 4).blk t).view.emb (ix1 q)) = _
    rw [e4]

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v28).slice (win1_5.rect t)).set ↔ _
  rw [View.set_slice_whole, Rect.mem_set_unit]
  exact Iff.rfl

/-- Every node row lies in some point's block: row `r` in the block of point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e00, e01, e10, e11, e20, e21, e30, e31, e40, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after the region: the layer of the five operand arrays as entered. -/
theorem arr1 (c : Dev nD) : (dat1 V c).arrAt 5 cfg1.N
    = Spec.layerRelu (V c main_arg0) (V c main_v27) (V c main_v12) (V c main_v13) (V c main_arg5) :=
  (dat1 V c).arrAt_eq_of_cover 5 _ (fun t _ => flushed1_eq V c t) cover1

end Cert.KernelIdeal.Val

end
-- ==== Proof.LinValue3.lean ====
/-
  Region 3 of the kernel's program: the second layer's projection. Each grid point takes one block of 5000 node rows of
  the node features and of the aggregated messages, the two weight halves and the bias whole, and stores the layer's entries
  for those rows; the 20 blocks tile the 100000 rows. So whatever the five operand arrays hold when the region is entered,
  the result array ends at the layer of those arrays.
-/
import proofs.«180362_j1915555414503_1_alg».proof.Proof.Gen.KernelIdeal.Frame
import proofs.«180362_j1915555414503_1_alg».proof.Proof.LinPay
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem lin3_off2 : (![0, 0] : Fin 2 → Nat) = fun _ => 0 := funext fun a => by fin_cases a <;> rfl
theorem lin3_off1 : (![0] : Fin 1 → Nat) = fun _ => 0 := funext fun a => by fin_cases a; rfl

/-- The row windows (node features, aggregated messages, result) sit at block (t, 0) at point `t`; the weight halves and
    the bias are one block each, at the origin. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- What point `t` writes back is block `t` of the layer of the five operand arrays as the region finds them. -/
theorem flushed3_eq (c : Dev nD) (t : Fin cfg3.N) :
    (dat3 V c).flushed 5 t = ((cfg3.win 5).blk t).view.read (Elt Ideal)
      (Spec.layer (V c main_v28) (V c main_v44) (V c main_v29) (V c main_v30) (V c main_arg7)) := by
  show (cfg3.win 5).cut (grid3.coords t) ((dat3 V c).after 5 t) = _
  rw [after3_5]
  unfold out3_5
  rw [View.canon_unit_zero lin3_off2]
  simp only [View.ld_unit_zero (S := S5000x64) lin3_off2, View.ld_unit_zero (S := S64x2) lin3_off2,
    View.ld_unit_zero (S := S2) lin3_off1]
  obtain ⟨e00, e01, e10, e11, e20, e21, e30, e31, e40, e50, e51⟩ := idx_facts3 t
  have hN : cfg3.N = 20 := N_3
  have htlt : t.val < 20 := hN ▸ t.isLt
  funext j
  obtain ⟨p, q, rfl⟩ : ∃ (p : Fin 5000) (q : Fin 2), j = ix2 p q := ⟨j 0, j 1, eq_ix2 j⟩
  have hp : p.val < 5000 := p.isLt
  have hP : t.val * 5000 + p.val < 100000 := by omega
  -- the block's row p is the array's row t·5000 + p; its column is the array's
  have e5 : ((cfg3.win 5).blk t).view.emb (ix2 p q) = ix2 (⟨t.val * 5000 + p.val, hP⟩ : Fin 100000) q := by
    funext a; apply Fin.ext
    match a with
    | ⟨0, _⟩ => show win3_5.index t (0 : Fin 2) * 5000 + 1 * p.val = t.val * 5000 + p.val; omega
    | ⟨1, _⟩ => show win3_5.index t (1 : Fin 2) * 2 + 1 * q.val = q.val; omega
  have e0 : ∀ k : Fin 64, ((cfg3.win 0).blk t).view.emb (ix2 p k) = ix2 (⟨t.val * 5000 + p.val, hP⟩ : Fin 100000) k := by
    intro k; funext a; apply Fin.ext
    match a with
    | ⟨0, _⟩ => show win3_0.index t (0 : Fin 2) * 5000 + 1 * p.val = t.val * 5000 + p.val; omega
    | ⟨1, _⟩ => show win3_0.index t (1 : Fin 2) * 64 + 1 * k.val = k.val; omega
  have e1 : ∀ k : Fin 64, ((cfg3.win 1).blk t).view.emb (ix2 p k) = ix2 (⟨t.val * 5000 + p.val, hP⟩ : Fin 100000) k := by
    intro k; funext a; apply Fin.ext
    match a with
    | ⟨0, _⟩ => show win3_1.index t (0 : Fin 2) * 5000 + 1 * p.val = t.val * 5000 + p.val; omega
    | ⟨1, _⟩ => show win3_1.index t (1 : Fin 2) * 64 + 1 * k.val = k.val; omega
  have e2 : ∀ k : Fin 64, ((cfg3.win 2).blk t).view.emb (ix2 k q) = ix2 k q := by
    intro k; funext a; apply Fin.ext
    match a with
    | ⟨0, _⟩ => show win3_2.index t (0 : Fin 2) * 64 + 1 * k.val = k.val; omega
    | ⟨1, _⟩ => show win3_2.index t (1 : Fin 2) * 2 + 1 * q.val = q.val; omega
  have e3 : ∀ k : Fin 64, ((cfg3.win 3).blk t).view.emb (ix2 k q) = ix2 k q := by
    intro k; funext a; apply Fin.ext
    match a with
    | ⟨0, _⟩ => show win3_3.index t (0 : Fin 2) * 64 + 1 * k.val = k.val; omega
    | ⟨1, _⟩ => show win3_3.index t (1 : Fin 2) * 2 + 1 * q.val = q.val; omega
  have e4 : ((cfg3.win 4).blk t).view.emb (ix1 q) = ix1 q := by
    funext a; apply Fin.ext
    match a with
    | ⟨0, _⟩ => show win3_4.index t (0 : Fin 1) * 2 + 1 * q.val = q.val; omega
  show k3_pay1 (iblk3 V c 0 t) (iblk3 V c 1 t) (iblk3 V c 2 t) (iblk3 V c 3 t) (iblk3 V c 4 t) (ix2 p q)
    = Spec.layer (V c main_v28) (V c main_v44) (V c main_v29) (V c main_v30) (V c main_arg7) (((cfg3.win 5).blk t).view.emb (ix2 p q))
  rw [e5]
  refine (pay3_apply (iblk3 V c 0 t) (iblk3 V c 1 t) (iblk3 V c 2 t) (iblk3 V c 3 t) (iblk3 V c 4 t) p q).trans ?_
  refine (Spec.affine_congr (fun k => ?_) (fun k => ?_) (fun k => ?_) (fun k => ?_) ?_)
  · show V c main_v28 (((cfg3.win 0).blk t).view.emb (ix2 p k)) = _
    rw [e0 k]
  · show V c main_v44 (((cfg3.win 1).blk t).view.emb (ix2 p k)) = _
    rw [e1 k]
  · show V c main_v29 (((cfg3.win 2).blk t).view.emb (ix2 k q)) = _
    rw [e2 k]
  · show V c main_v30 (((cfg3.win 3).blk t).view.emb (ix2 k q)) = _
    rw [e3 k]
  · show V c main_arg7 (((cfg3.win 4).blk t).view.emb (ix1 q)) = _
    rw [e4]

/-- An index of the result array is in point `t`'s block iff each coordinate is in the block's range on its axis. -/
theorem mem_blk3 (t : Fin cfg3.N) (i : S100000x2.Idx) :
    i ∈ ((cfg3.win 5).blk t).view.set ↔ ∀ a : Fin 2, win3_5.index t a * S5000x2.size a ≤ (i a).val ∧ (i a).val < win3_5.index t a * S5000x2.size a + S5000x2.size a := by
  show i ∈ ((View.whole main_v45).slice (win3_5.rect t)).set ↔ _
  rw [View.set_slice_whole, Rect.mem_set_unit]
  exact Iff.rfl

/-- Every node row lies in some point's block: row `r` in the block of point `r / 5000`. -/
theorem cover3 (i : S100000x2.Idx) :
    ∃ t : Fin cfg3.N, (cfg3.win 5).flush t = true ∧ i ∈ ((cfg3.win 5).blk t).view.set := by
  have hi0 : (i 0).val < 100000 := (i 0).isLt
  have hi1 : (i 1).val < 2 := (i 1).isLt
  have hN : cfg3.N = 20 := N_3
  let t : Fin cfg3.N := ⟨(i 0).val / 5000, by rw [hN]; omega⟩
  obtain ⟨e00, e01, e10, e11, e20, e21, e30, e31, e40, e50, e51⟩ := idx_facts3 t
  have ht : t.val = (i 0).val / 5000 := rfl
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 2 ≤ (i 1).val ∧ (i 1).val < win3_5.index t (1 : Fin 2) * 2 + 2; omega

/-- The result array after the region: the layer of the five operand arrays as entered. -/
theorem arr3 (c : Dev nD) : (dat3 V c).arrAt 5 cfg3.N
    = Spec.layer (V c main_v28) (V c main_v44) (V c main_v29) (V c main_v30) (V c main_arg7) :=
  (dat3 V c).arrAt_eq_of_cover 5 _ (fun t _ => flushed3_eq V c t) cover3

end Cert.KernelIdeal.Val

end
-- ==== Proof.Bridge.lean ====
/-
  The two places where the programs spell one layer differently, as equations between whole arrays.

  The mean: the messages' sum over a node's incoming edges is scaled by the node's degree count clipped at one. Multiplying
  by the broadcast reciprocal 1 / max(cnt, 1) and dividing by the broadcast max(cnt, 1) agree entry by entry, the divisor
  never being zero.

  The projection: contracting the joined row [x | a] of 2C features against the whole weight matrix and adding the
  broadcast bias is, entry by entry, the contraction of x against the matrix's upper C rows plus that of a against its
  lower C rows plus the bias: the sum over the joined axis splits at the seam, the joined array reads its first piece
  before the seam and its second after it, and a row slice of the matrix reads the matrix at the shifted row.
-/
import proofs.«180362_j1915555414503_1_alg».proof.Proof.LibRowDims
import proofs.«180362_j1915555414503_1_alg».proof.Proof.Spec
import Idealize.ShloMosaic.Lib.Pipeline.Value
import Idealize.ShloMosaic.Lib.ValueLayout
import Idealize.ShloMosaic.Lib.IdealHost

noncomputable section

open scoped BigOperators

namespace Cert.Spec

open Idealize.ShloMosaic Idealize.ShloMosaic.ValueIdx

/-- The sum array scaled by the broadcast reciprocal of max(cnt, 1) is the sum array divided by the broadcast
    max(cnt, 1): at every entry both are the product with the inverse of a divisor that is at least one. -/
theorem mean_scale {N C : Nat} (s : FVec Ideal ⟨2, ![N, C]⟩ .f32) (cnt : FVec Ideal ⟨1, ![N]⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1]) :
    mulf s (broadcastInDim ⟨2, ![N, C]⟩ ![0, 1] h2 (broadcastInDim ⟨2, ![N, 1]⟩ ![0] h1
        (Host.divf (broadcastInDim ⟨1, ![N]⟩ ![] h0 (constant ⟨0, ![]⟩ .f32 0x3F800000#32))
          (maximumf cnt (broadcastInDim ⟨1, ![N]⟩ ![] h0 (constant ⟨0, ![]⟩ .f32 0x3F800000#32))))))
    = Host.divf s (broadcastInDim ⟨2, ![N, C]⟩ ![0, 1] h2 (broadcastInDim ⟨2, ![N, 1]⟩ ![0] h1
        (maximumf cnt (broadcastInDim ⟨1, ![N]⟩ ![] h0 (constant ⟨0, ![]⟩ .f32 0x3F800000#32))))) := by
  funext i
  simp only [mulf, Host.divf, maximumf, broadcastInDim, constant, Ideal.hostDivf_def, Ideal.mulf_def, Ideal.maximumf_def,
    Ideal.ofBits_def, Ideal.ofBits_one_f32]
  exact mul_recip_eq_div _ _

/-- The joined row [x | a] contracted against the whole matrix, plus the broadcast bias, is the layer of x, a, the
    matrix's upper and lower C rows and the bias. -/
theorem joined_dense {N C K D : Nat} (hK : K = C + C)
    (x a : FVec Ideal ⟨2, ![N, C]⟩ .f32) (W : FVec Ideal ⟨2, ![K, D]⟩ .f32) (b : FVec Ideal ⟨1, ![D]⟩ .f32)
    (d : DotDims ⟨2, ![N, K]⟩ ⟨2, ![K, D]⟩ ⟨2, ![N, D]⟩) (hd : d = DotDims.plain N K D)
    (hc : Shape.Concatenates [⟨2, ![N, C]⟩, ⟨2, ![N, C]⟩] ⟨2, ![N, K]⟩ 1)
    (hs0 : (⟨2, ![K, D]⟩ : Shape).Slices ![0, 0] ⟨2, ![C, D]⟩) (hs1 : (⟨2, ![K, D]⟩ : Shape).Slices ![C, 0] ⟨2, ![C, D]⟩)
    (hb1 : (⟨1, ![D]⟩ : Shape).BroadcastsInDim ⟨2, ![1, D]⟩ ![1])
    (hb2 : (⟨2, ![1, D]⟩ : Shape).BroadcastsInDim ⟨2, ![N, D]⟩ ![0, 1]) :
    addf (Host.dotGeneral d none (concatenate ⟨2, ![N, K]⟩ 1 [⟨⟨2, ![N, C]⟩, x⟩, ⟨⟨2, ![N, C]⟩, a⟩] hc) W)
        (broadcastInDim ⟨2, ![N, D]⟩ ![0, 1] hb2 (broadcastInDim ⟨2, ![1, D]⟩ ![1] hb1 b))
      = Spec.layer x a (extractStridedSlice ⟨2, ![C, D]⟩ ![0, 0] W hs0) (extractStridedSlice ⟨2, ![C, D]⟩ ![C, 0] W hs1) b := by
  subst hK; subst hd
  funext i
  obtain ⟨p, q, rfl⟩ : ∃ (p : Fin N) (q : Fin D), i = ix2 p q := ⟨i 0, i 1, eq_ix2 i⟩
  rw [addf_apply]
  unfold Host.dotGeneral
  rw [RowDims.dotGeneral_plain_apply, sum_seam]
  show _ = Spec.affine x a _ _ b p q
  unfold Spec.affine
  congr 1
  · congr 1
    · refine Finset.sum_congr rfl fun k _ => ?_
      rw [concatenate_pair_apply_left 1 x a hc (ix2 p (Fin.castAdd C k)) rfl (ix2 p k)
            (fun b => by match b with | ⟨0, _⟩ => rfl | ⟨1, _⟩ => rfl),
        slice2_axis0_apply 0 W hs0 k q (Fin.castAdd C k) (by show k.val = 0 + k.val; omega)]
    · refine Finset.sum_congr rfl fun k _ => ?_
      rw [concatenate_pair_apply_right 1 x a hc (ix2 p (Fin.natAdd C k)) rfl rfl (ix2 p k)
            (fun b hb => by match b with | ⟨0, _⟩ => rfl | ⟨1, _⟩ => exact absurd rfl hb)
            (by show k.val + C = C + k.val; omega),
        slice2_axis0_apply C W hs1 k q (Fin.natAdd C k) rfl]
  · rw [broadcastInDim_apply ![0, 1] hb2 _ (ix2 p q) (ix2 (0 : Fin 1) q) (fun a => by
          match a with
          | ⟨0, _⟩ => show 0 = if (1 : Nat) = 1 then 0 else p.val; rw [if_pos rfl]
          | ⟨1, _⟩ =>
            show q.val = if D = 1 then 0 else q.val
            split
            · have := q.isLt; omega
            · rfl),
      broadcastInDim_apply ![1] hb1 b (ix2 (0 : Fin 1) q) (ix1 q) (fun a => by
          match a with
          | ⟨0, _⟩ =>
            show q.val = if D = 1 then 0 else q.val
            split
            · have := q.isLt; omega
            · rfl)]

/-- The same under the rectifier: a maximum with the broadcast zero is, entry by entry, the maximum with zero. -/
theorem joined_dense_relu {N C K D : Nat} (hK : K = C + C)
    (x a : FVec Ideal ⟨2, ![N, C]⟩ .f32) (W : FVec Ideal ⟨2, ![K, D]⟩ .f32) (b : FVec Ideal ⟨1, ![D]⟩ .f32)
    (d : DotDims ⟨2, ![N, K]⟩ ⟨2, ![K, D]⟩ ⟨2, ![N, D]⟩) (hd : d = DotDims.plain N K D)
    (hc : Shape.Concatenates [⟨2, ![N, C]⟩, ⟨2, ![N, C]⟩] ⟨2, ![N, K]⟩ 1)
    (hs0 : (⟨2, ![K, D]⟩ : Shape).Slices ![0, 0] ⟨2, ![C, D]⟩) (hs1 : (⟨2, ![K, D]⟩ : Shape).Slices ![C, 0] ⟨2, ![C, D]⟩)
    (hb1 : (⟨1, ![D]⟩ : Shape).BroadcastsInDim ⟨2, ![1, D]⟩ ![1])
    (hb2 : (⟨2, ![1, D]⟩ : Shape).BroadcastsInDim ⟨2, ![N, D]⟩ ![0, 1])
    (hz : (⟨0, ![]⟩ : Shape).BroadcastsInDim ⟨2, ![N, D]⟩ ![]) :
    maximumf (addf (Host.dotGeneral d none (concatenate ⟨2, ![N, K]⟩ 1 [⟨⟨2, ![N, C]⟩, x⟩, ⟨⟨2, ![N, C]⟩, a⟩] hc) W)
        (broadcastInDim ⟨2, ![N, D]⟩ ![0, 1] hb2 (broadcastInDim ⟨2, ![1, D]⟩ ![1] hb1 b)))
        (broadcastInDim ⟨2, ![N, D]⟩ ![] hz (constant ⟨0, ![]⟩ .f32 0x00000000#32))
      = Spec.layerRelu x a (extractStridedSlice ⟨2, ![C, D]⟩ ![0, 0] W hs0) (extractStridedSlice ⟨2, ![C, D]⟩ ![C, 0] W hs1) b := by
  rw [joined_dense hK x a W b d hd hc hs0 hs1 hb1 hb2]
  funext i
  show max (Spec.layer x a _ _ b i) (Ideal.ofBits .f32 0x00000000#32) = max (Spec.affine x a _ _ b (i 0) (i 1)) 0
  rw [Ideal.ofBits_zero_f32]
  rfl

end Cert.Spec

end
-- ==== Proof.Chain.lean ====
/-
  The kernel's program walked from launch to return, in the reference's own vocabulary.

  The program is eight stretches: host operations, the edge-product region, host operations, the first layer's region,
  and the same four again for the second layer. At each boundary the buffers a later stretch reads are named as the
  reference's stages of the argument arrays (the generated read-back of the reference: its `val_` functions):
    * before region 0 the gathered rows are the reference's gather;
    * after it, the edge products are the reference's products;
    * the scaled scatter-sum is the reference's mean (the reciprocal law);
    * the first layer's result is the reference's rectified joined contraction (the seam law);
    * and likewise for the second layer, whose result is the reference's result.
  A buffer a stretch does not write keeps its contents through it: host stretches by the list of their writes, regions
  by the list of their windows' arrays.
-/
import proofs.«180362_j1915555414503_1_alg».proof.Proof.Gen.KernelIdeal.Frame
import proofs.«180362_j1915555414503_1_alg».proof.Proof.Gen.ReferenceIdeal.Read
import proofs.«180362_j1915555414503_1_alg».proof.Proof.MulValue0
import proofs.«180362_j1915555414503_1_alg».proof.Proof.MulValue2
import proofs.«180362_j1915555414503_1_alg».proof.Proof.LinValue1
import proofs.«180362_j1915555414503_1_alg».proof.Proof.LinValue3
import proofs.«180362_j1915555414503_1_alg».proof.Proof.Bridge
import Idealize.ShloMosaic.Lib.StableHlo.Run

set_option maxRecDepth 16384
set_option maxHeartbeats 4000000

noncomputable section

namespace Cert.KernelIdeal.Val

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays at launch. -/
abbrev a0 (c : Dev nD) : (⟨S100000x128, .f32⟩ : BufTy).Contents (Elt Ideal) := m ((c : Thread nD τ).loc main_arg0)
abbrev a1 (c : Dev nD) : (⟨S2x1600000, .i32⟩ : BufTy).Contents (Elt Ideal) := m ((c : Thread nD τ).loc main_arg1)
abbrev a2 (c : Dev nD) : (⟨S1600000x128, .f32⟩ : BufTy).Contents (Elt Ideal) := m ((c : Thread nD τ).loc main_arg2)
abbrev a3 (c : Dev nD) : (⟨S1600000x64, .f32⟩ : BufTy).Contents (Elt Ideal) := m ((c : Thread nD τ).loc main_arg3)
abbrev a4 (c : Dev nD) : (⟨S256x64, .f32⟩ : BufTy).Contents (Elt Ideal) := m ((c : Thread nD τ).loc main_arg4)
abbrev a5 (c : Dev nD) : (⟨S64, .f32⟩ : BufTy).Contents (Elt Ideal) := m ((c : Thread nD τ).loc main_arg5)
abbrev a6 (c : Dev nD) : (⟨S128x2, .f32⟩ : BufTy).Contents (Elt Ideal) := m ((c : Thread nD τ).loc main_arg6)
abbrev a7 (c : Dev nD) : (⟨S2, .f32⟩ : BufTy).Contents (Elt Ideal) := m ((c : Thread nD τ).loc main_arg7)

/-- The reciprocal of the clipped degree count, as the kernel's program computes it once. -/
abbrev recip (x1 : (⟨S2x1600000, .i32⟩ : BufTy).Contents (Elt Ideal)) : FVec Ideal S100000 .f32 :=
  Host.divf (val_main_v19 (F := Ideal)) (val_main_v20 (F := Ideal) x1)

/-! ## Before region 0 -/

theorem W1_v20 (c : Dev nD) : W1 m ρ c (Proc.devRef .tc main_v20) = val_main_v10 (F := Ideal) (a0 m c) (a1 m c) := by
  show StableHlo.after hostOps0 (W0 m ρ c) (Proc.devRef .tc main_v20) = _
  after_results_simp <;> rfl
theorem W1_arg2 (c : Dev nD) : W1 m ρ c (Proc.devRef .tc main_arg2) = a2 m c := by
  show StableHlo.after hostOps0 (W0 m ρ c) (Proc.devRef .tc main_arg2) = _
  after_results_simp <;> rfl
theorem W1_v3 (c : Dev nD) : W1 m ρ c (Proc.devRef .tc main_v3) = val_main_v3 (F := Ideal) (a1 m c) := by
  show StableHlo.after hostOps0 (W0 m ρ c) (Proc.devRef .tc main_v3) = _
  after_results_simp <;> rfl
theorem W1_v1 (c : Dev nD) : W1 m ρ c (Proc.devRef .tc main_v1) = val_main_v1 (F := Ideal) (a1 m c) := by
  show StableHlo.after hostOps0 (W0 m ρ c) (Proc.devRef .tc main_v1) = _
  after_results_simp <;> rfl
theorem W1_v11 (c : Dev nD) : W1 m ρ c (Proc.devRef .tc main_v11) = recip (a1 m c) := by
  show StableHlo.after hostOps0 (W0 m ρ c) (Proc.devRef .tc main_v11) = _
  after_results_simp <;> rfl
theorem W1_v12 (c : Dev nD) : W1 m ρ c (Proc.devRef .tc main_v12)
    = extractStridedSlice S128x64 ![0, 0] (a4 m c) slices_S256x64_S128x64_0_0 := by
  show StableHlo.after hostOps0 (W0 m ρ c) (Proc.devRef .tc main_v12) = _
  after_results_simp <;> rfl
theorem W1_v13 (c : Dev nD) : W1 m ρ c (Proc.devRef .tc main_v13)
    = extractStridedSlice S128x64 ![128, 0] (a4 m c) slices_S256x64_S128x64_128_0 := by
  show StableHlo.after hostOps0 (W0 m ρ c) (Proc.devRef .tc main_v13) = _
  after_results_simp <;> rfl
theorem W1_arg0 (c : Dev nD) : W1 m ρ c (Proc.devRef .tc main_arg0) = a0 m c := by
  show StableHlo.after hostOps0 (W0 m ρ c) (Proc.devRef .tc main_arg0) = _
  after_results_simp <;> rfl
theorem W1_arg3 (c : Dev nD) : W1 m ρ c (Proc.devRef .tc main_arg3) = a3 m c := by
  show StableHlo.after hostOps0 (W0 m ρ c) (Proc.devRef .tc main_arg3) = _
  after_results_simp <;> rfl
theorem W1_arg5 (c : Dev nD) : W1 m ρ c (Proc.devRef .tc main_arg5) = a5 m c := by
  show StableHlo.after hostOps0 (W0 m ρ c) (Proc.devRef .tc main_arg5) = _
  after_results_simp <;> rfl
theorem W1_arg6 (c : Dev nD) : W1 m ρ c (Proc.devRef .tc main_arg6) = a6 m c := by
  show StableHlo.after hostOps0 (W0 m ρ c) (Proc.devRef .tc main_arg6) = _
  after_results_simp <;> rfl
theorem W1_arg7 (c : Dev nD) : W1 m ρ c (Proc.devRef .tc main_arg7) = a7 m c := by
  show StableHlo.after hostOps0 (W0 m ρ c) (Proc.devRef .tc main_arg7) = _
  after_results_simp <;> rfl

/-! ## After region 0 -/

theorem W2_v21 (c : Dev nD) : W2 m ρ c (Proc.devRef .tc main_v21)
    = val_main_v11 (F := Ideal) (a0 m c) (a1 m c) (a2 m c) := by
  refine (W2_arr m ρ c 2).trans ?_
  rw [arr0 (V1 m ρ) c]
  show edgeProd128 (W1 m ρ c (Proc.devRef .tc main_v20)) (W1 m ρ c (Proc.devRef .tc main_arg2)) = _
  rw [W1_v20, W1_arg2]
  rfl
theorem W2_v3 (c : Dev nD) : W2 m ρ c (Proc.devRef .tc main_v3) = val_main_v3 (F := Ideal) (a1 m c) :=
  (W2_of_ne m ρ c main_v3 (by decide)).trans (W1_v3 m ρ c)
theorem W2_v1 (c : Dev nD) : W2 m ρ c (Proc.devRef .tc main_v1) = val_main_v1 (F := Ideal) (a1 m c) :=
  (W2_of_ne m ρ c main_v1 (by decide)).trans (W1_v1 m ρ c)
theorem W2_v11 (c : Dev nD) : W2 m ρ c (Proc.devRef .tc main_v11) = recip (a1 m c) :=
  (W2_of_ne m ρ c main_v11 (by decide)).trans (W1_v11 m ρ c)
theorem W2_v12 (c : Dev nD) : W2 m ρ c (Proc.devRef .tc main_v12)
    = extractStridedSlice S128x64 ![0, 0] (a4 m c) slices_S256x64_S128x64_0_0 :=
  (W2_of_ne m ρ c main_v12 (by decide)).trans (W1_v12 m ρ c)
theorem W2_v13 (c : Dev nD) : W2 m ρ c (Proc.devRef .tc main_v13)
    = extractStridedSlice S128x64 ![128, 0] (a4 m c) slices_S256x64_S128x64_128_0 :=
  (W2_of_ne m ρ c main_v13 (by decide)).trans (W1_v13 m ρ c)
theorem W2_arg0 (c : Dev nD) : W2 m ρ c (Proc.devRef .tc main_arg0) = a0 m c :=
  (W2_of_ne m ρ c main_arg0 (by decide)).trans (W1_arg0 m ρ c)
theorem W2_arg3 (c : Dev nD) : W2 m ρ c (Proc.devRef .tc main_arg3) = a3 m c :=
  (W2_of_ne m ρ c main_arg3 (by decide)).trans (W1_arg3 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)
theorem W2_arg7 (c : Dev nD) : W2 m ρ c (Proc.devRef .tc main_arg7) = a7 m c :=
  (W2_of_ne m ρ c main_arg7 (by decide)).trans (W1_arg7 m ρ c)

/-! ## Before region 1 -/

theorem W3_v27 (c : Dev nD) : W3 m ρ c (Proc.devRef .tc main_v27)
    = val_main_v23 (F := Ideal) (a0 m c) (a1 m c) (a2 m c) := by
  show StableHlo.after hostOps1 (W2 m ρ c) (Proc.devRef .tc main_v27) = _
  after_results_simp
  rw [W2_v3, W2_v21, W2_v11]
  exact Spec.mean_scale (N := 100000) (C := 128) (val_main_v14 (F := Ideal) (a0 m c) (a1 m c) (a2 m c))
    (val_main_v18 (F := Ideal) (a1 m c)) bcast_S_S100000 bcast_S100000_S100000x1_0 bcast_S100000x1_S100000x128_0_1
theorem W3_arg0 (c : Dev nD) : W3 m ρ c (Proc.devRef .tc main_arg0) = a0 m c := by
  refine Eq.trans ?_ (W2_arg0 m ρ c)
  show StableHlo.after hostOps1 (W2 m ρ c) (Proc.devRef .tc main_arg0) = _
  after_results_simp <;> rfl
theorem W3_arg5 (c : Dev nD) : W3 m ρ c (Proc.devRef .tc main_arg5) = a5 m c := by
  refine Eq.trans ?_ (W2_arg5 m ρ c)
  show StableHlo.after hostOps1 (W2 m ρ c) (Proc.devRef .tc main_arg5) = _
  after_results_simp <;> rfl
theorem W3_v12 (c : Dev nD) : W3 m ρ c (Proc.devRef .tc main_v12)
    = extractStridedSlice S128x64 ![0, 0] (a4 m c) slices_S256x64_S128x64_0_0 := by
  refine Eq.trans ?_ (W2_v12 m ρ c)
  show StableHlo.after hostOps1 (W2 m ρ c) (Proc.devRef .tc main_v12) = _
  after_results_simp <;> rfl
theorem W3_v13 (c : Dev nD) : W3 m ρ c (Proc.devRef .tc main_v13)
    = extractStridedSlice S128x64 ![128, 0] (a4 m c) slices_S256x64_S128x64_128_0 := by
  refine Eq.trans ?_ (W2_v13 m ρ c)
  show StableHlo.after hostOps1 (W2 m ρ c) (Proc.devRef .tc main_v13) = _
  after_results_simp <;> rfl
theorem W3_v3 (c : Dev nD) : W3 m ρ c (Proc.devRef .tc main_v3) = val_main_v3 (F := Ideal) (a1 m c) := by
  refine Eq.trans ?_ (W2_v3 m ρ c)
  show StableHlo.after hostOps1 (W2 m ρ c) (Proc.devRef .tc main_v3) = _
  after_results_simp <;> rfl
theorem W3_v1 (c : Dev nD) : W3 m ρ c (Proc.devRef .tc main_v1) = val_main_v1 (F := Ideal) (a1 m c) := by
  refine Eq.trans ?_ (W2_v1 m ρ c)
  show StableHlo.after hostOps1 (W2 m ρ c) (Proc.devRef .tc main_v1) = _
  after_results_simp <;> rfl
theorem W3_v11 (c : Dev nD) : W3 m ρ c (Proc.devRef .tc main_v11) = recip (a1 m c) := by
  refine Eq.trans ?_ (W2_v11 m ρ c)
  show StableHlo.after hostOps1 (W2 m ρ c) (Proc.devRef .tc main_v11) = _
  after_results_simp <;> rfl
theorem W3_arg3 (c : Dev nD) : W3 m ρ c (Proc.devRef .tc main_arg3) = a3 m c := by
  refine Eq.trans ?_ (W2_arg3 m ρ c)
  show StableHlo.after hostOps1 (W2 m ρ c) (Proc.devRef .tc main_arg3) = _
  after_results_simp <;> rfl
theorem W3_arg6 (c : Dev nD) : W3 m ρ c (Proc.devRef .tc main_arg6) = a6 m c := by
  refine Eq.trans ?_ (W2_arg6 m ρ c)
  show StableHlo.after hostOps1 (W2 m ρ c) (Proc.devRef .tc main_arg6) = _
  after_results_simp <;> rfl
theorem W3_arg7 (c : Dev nD) : W3 m ρ c (Proc.devRef .tc main_arg7) = a7 m c := by
  refine Eq.trans ?_ (W2_arg7 m ρ c)
  show StableHlo.after hostOps1 (W2 m ρ c) (Proc.devRef .tc main_arg7) = _
  after_results_simp <;> rfl

/-! ## After region 1 -/

theorem W4_v28 (c : Dev nD) : W4 m ρ c (Proc.devRef .tc main_v28)
    = val_main_v29 (F := Ideal) (a0 m c) (a1 m c) (a2 m c) (a4 m c) (a5 m c) := by
  refine (W4_arr m ρ c 5).trans ?_
  rw [arr1 (V3 m ρ) c]
  show Spec.layerRelu (W3 m ρ c (Proc.devRef .tc main_arg0)) (W3 m ρ c (Proc.devRef .tc main_v27))
    (W3 m ρ c (Proc.devRef .tc main_v12)) (W3 m ρ c (Proc.devRef .tc main_v13)) (W3 m ρ c (Proc.devRef .tc main_arg5)) = _
  rw [W3_arg0, W3_v27, W3_v12, W3_v13, W3_arg5]
  exact (Spec.joined_dense_relu (N := 100000) (C := 128) (K := 256) (D := 64) rfl (a0 m c)
    (val_main_v23 (F := Ideal) (a0 m c) (a1 m c) (a2 m c)) (a4 m c) (a5 m c)
    Cert.ReferenceIdeal.dot_S100000x256_S256x64_S100000x64_1_0_0_1_n_n rfl
    Cert.ReferenceIdeal.Gen.concatenates_S100000x128_S100000x128_S100000x256_d1
    slices_S256x64_S128x64_0_0 slices_S256x64_S128x64_128_0
    Cert.ReferenceIdeal.Gen.bcast_S64_S1x64_1 Cert.ReferenceIdeal.Gen.bcast_S1x64_S100000x64_0_1 Cert.ReferenceIdeal.Gen.bcast_S_S100000x64).symm
theorem W4_v3 (c : Dev nD) : W4 m ρ c (Proc.devRef .tc main_v3) = val_main_v3 (F := Ideal) (a1 m c) :=
  (W4_of_ne m ρ c main_v3 (by decide)).trans (W3_v3 m ρ c)
theorem W4_v1 (c : Dev nD) : W4 m ρ c (Proc.devRef .tc main_v1) = val_main_v1 (F := Ideal) (a1 m c) :=
  (W4_of_ne m ρ c main_v1 (by decide)).trans (W3_v1 m ρ c)
theorem W4_v11 (c : Dev nD) : W4 m ρ c (Proc.devRef .tc main_v11) = recip (a1 m c) :=
  (W4_of_ne m ρ c main_v11 (by decide)).trans (W3_v11 m ρ c)
theorem W4_arg3 (c : Dev nD) : W4 m ρ c (Proc.devRef .tc main_arg3) = a3 m c :=
  (W4_of_ne m ρ c main_arg3 (by decide)).trans (W3_arg3 m ρ c)
theorem W4_arg6 (c : Dev nD) : W4 m ρ c (Proc.devRef .tc main_arg6) = a6 m c :=
  (W4_of_ne m ρ c main_arg6 (by decide)).trans (W3_arg6 m ρ c)
theorem W4_arg7 (c : Dev nD) : W4 m ρ c (Proc.devRef .tc main_arg7) = a7 m c :=
  (W4_of_ne m ρ c main_arg7 (by decide)).trans (W3_arg7 m ρ c)

/-! ## Before region 2 -/

theorem W5_v37 (c : Dev nD) : W5 m ρ c (Proc.devRef .tc main_v37)
    = val_main_v40 (F := Ideal) (a0 m c) (a1 m c) (a2 m c) (a4 m c) (a5 m c) := by
  show StableHlo.after hostOps2 (W4 m ρ c) (Proc.devRef .tc main_v37) = _
  after_results_simp
  rw [W4_v28, W4_v1]
  rfl
theorem W5_arg3 (c : Dev nD) : W5 m ρ c (Proc.devRef .tc main_arg3) = a3 m c := by
  refine Eq.trans ?_ (W4_arg3 m ρ c)
  show StableHlo.after hostOps2 (W4 m ρ c) (Proc.devRef .tc main_arg3) = _
  after_results_simp <;> rfl
theorem W5_v28 (c : Dev nD) : W5 m ρ c (Proc.devRef .tc main_v28)
    = val_main_v29 (F := Ideal) (a0 m c) (a1 m c) (a2 m c) (a4 m c) (a5 m c) := by
  refine Eq.trans ?_ (W4_v28 m ρ c)
  show StableHlo.after hostOps2 (W4 m ρ c) (Proc.devRef .tc main_v28) = _
  after_results_simp <;> rfl
theorem W5_v29 (c : Dev nD) : W5 m ρ c (Proc.devRef .tc main_v29)
    = extractStridedSlice S64x2 ![0, 0] (a6 m c) slices_S128x2_S64x2_0_0 := by
  show StableHlo.after hostOps2 (W4 m ρ c) (Proc.devRef .tc main_v29) = _
  after_results_simp
  rw [W4_arg6]
theorem W5_v30 (c : Dev nD) : W5 m ρ c (Proc.devRef .tc main_v30)
    = extractStridedSlice S64x2 ![64, 0] (a6 m c) slices_S128x2_S64x2_64_0 := by
  show StableHlo.after hostOps2 (W4 m ρ c) (Proc.devRef .tc main_v30) = _
  after_results_simp
  rw [W4_arg6]
theorem W5_v3 (c : Dev nD) : W5 m ρ c (Proc.devRef .tc main_v3) = val_main_v3 (F := Ideal) (a1 m c) := by
  refine Eq.trans ?_ (W4_v3 m ρ c)
  show StableHlo.after hostOps2 (W4 m ρ c) (Proc.devRef .tc main_v3) = _
  after_results_simp <;> rfl
theorem W5_v11 (c : Dev nD) : W5 m ρ c (Proc.devRef .tc main_v11) = recip (a1 m c) := by
  refine Eq.trans ?_ (W4_v11 m ρ c)
  show StableHlo.after hostOps2 (W4 m ρ c) (Proc.devRef .tc main_v11) = _
  after_results_simp <;> rfl
theorem W5_arg7 (c : Dev nD) : W5 m ρ c (Proc.devRef .tc main_arg7) = a7 m c := by
  refine Eq.trans ?_ (W4_arg7 m ρ c)
  show StableHlo.after hostOps2 (W4 m ρ c) (Proc.devRef .tc main_arg7) = _
  after_results_simp <;> rfl

/-! ## After region 2 -/

theorem W6_v38 (c : Dev nD) : W6 m ρ c (Proc.devRef .tc main_v38)
    = val_main_v41 (F := Ideal) (a0 m c) (a1 m c) (a2 m c) (a3 m c) (a4 m c) (a5 m c) := by
  refine (W6_arr m ρ c 2).trans ?_
  rw [arr2 (V5 m ρ) c]
  show edgeProd64 (W5 m ρ c (Proc.devRef .tc main_v37)) (W5 m ρ c (Proc.devRef .tc main_arg3)) = _
  rw [W5_v37, W5_arg3]
  rfl
theorem W6_v28 (c : Dev nD) : W6 m ρ c (Proc.devRef .tc main_v28)
    = val_main_v29 (F := Ideal) (a0 m c) (a1 m c) (a2 m c) (a4 m c) (a5 m c) :=
  (W6_of_ne m ρ c main_v28 (by decide)).trans (W5_v28 m ρ c)
theorem W6_v29 (c : Dev nD) : W6 m ρ c (Proc.devRef .tc main_v29)
    = extractStridedSlice S64x2 ![0, 0] (a6 m c) slices_S128x2_S64x2_0_0 :=
  (W6_of_ne m ρ c main_v29 (by decide)).trans (W5_v29 m ρ c)
theorem W6_v30 (c : Dev nD) : W6 m ρ c (Proc.devRef .tc main_v30)
    = extractStridedSlice S64x2 ![64, 0] (a6 m c) slices_S128x2_S64x2_64_0 :=
  (W6_of_ne m ρ c main_v30 (by decide)).trans (W5_v30 m ρ c)
theorem W6_v3 (c : Dev nD) : W6 m ρ c (Proc.devRef .tc main_v3) = val_main_v3 (F := Ideal) (a1 m c) :=
  (W6_of_ne m ρ c main_v3 (by decide)).trans (W5_v3 m ρ c)
theorem W6_v11 (c : Dev nD) : W6 m ρ c (Proc.devRef .tc main_v11) = recip (a1 m c) :=
  (W6_of_ne m ρ c main_v11 (by decide)).trans (W5_v11 m ρ c)
theorem W6_arg7 (c : Dev nD) : W6 m ρ c (Proc.devRef .tc main_arg7) = a7 m c :=
  (W6_of_ne m ρ c main_arg7 (by decide)).trans (W5_arg7 m ρ c)

/-! ## Before region 3 -/

theorem W7_v44 (c : Dev nD) : W7 m ρ c (Proc.devRef .tc main_v44)
    = val_main_v53 (F := Ideal) (a0 m c) (a1 m c) (a2 m c) (a3 m c) (a4 m c) (a5 m c) := by
  show StableHlo.after hostOps3 (W6 m ρ c) (Proc.devRef .tc main_v44) = _
  after_results_simp
  rw [W6_v3, W6_v38, W6_v11]
  exact Spec.mean_scale (N := 100000) (C := 64)
    (val_main_v44 (F := Ideal) (a0 m c) (a1 m c) (a2 m c) (a3 m c) (a4 m c) (a5 m c))
    (val_main_v48 (F := Ideal) (a1 m c)) bcast_S_S100000 bcast_S100000_S100000x1_0 bcast_S100000x1_S100000x64_0_1
theorem W7_v28 (c : Dev nD) : W7 m ρ c (Proc.devRef .tc main_v28)
    = val_main_v29 (F := Ideal) (a0 m c) (a1 m c) (a2 m c) (a4 m c) (a5 m c) := by
  refine Eq.trans ?_ (W6_v28 m ρ c)
  show StableHlo.after hostOps3 (W6 m ρ c) (Proc.devRef .tc main_v28) = _
  after_results_simp <;> rfl
theorem W7_v29 (c : Dev nD) : W7 m ρ c (Proc.devRef .tc main_v29)
    = extractStridedSlice S64x2 ![0, 0] (a6 m c) slices_S128x2_S64x2_0_0 := by
  refine Eq.trans ?_ (W6_v29 m ρ c)
  show StableHlo.after hostOps3 (W6 m ρ c) (Proc.devRef .tc main_v29) = _
  after_results_simp <;> rfl
theorem W7_v30 (c : Dev nD) : W7 m ρ c (Proc.devRef .tc main_v30)
    = extractStridedSlice S64x2 ![64, 0] (a6 m c) slices_S128x2_S64x2_64_0 := by
  refine Eq.trans ?_ (W6_v30 m ρ c)
  show StableHlo.after hostOps3 (W6 m ρ c) (Proc.devRef .tc main_v30) = _
  after_results_simp <;> rfl
theorem W7_arg7 (c : Dev nD) : W7 m ρ c (Proc.devRef .tc main_arg7) = a7 m c := by
  refine Eq.trans ?_ (W6_arg7 m ρ c)
  show StableHlo.after hostOps3 (W6 m ρ c) (Proc.devRef .tc main_arg7) = _
  after_results_simp <;> rfl

/-! ## At the return -/

/-- The result buffer ends at the reference's result of the argument arrays as launched. -/
theorem W8_v45 (c : Dev nD) : W8 m ρ c (Proc.devRef .tc main_v45)
    = val_main_v58 (F := Ideal) (a0 m c) (a1 m c) (a2 m c) (a3 m c) (a4 m c) (a5 m c) (a6 m c) (a7 m c) := by
  refine (W8_arr m ρ c 5).trans ?_
  rw [arr3 (V7 m ρ) c]
  show Spec.layer (W7 m ρ c (Proc.devRef .tc main_v28)) (W7 m ρ c (Proc.devRef .tc main_v44))
    (W7 m ρ c (Proc.devRef .tc main_v29)) (W7 m ρ c (Proc.devRef .tc main_v30)) (W7 m ρ c (Proc.devRef .tc main_arg7)) = _
  rw [W7_v28, W7_v44, W7_v29, W7_v30, W7_arg7]
  exact (Spec.joined_dense (N := 100000) (C := 64) (K := 128) (D := 2) rfl
    (val_main_v29 (F := Ideal) (a0 m c) (a1 m c) (a2 m c) (a4 m c) (a5 m c))
    (val_main_v53 (F := Ideal) (a0 m c) (a1 m c) (a2 m c) (a3 m c) (a4 m c) (a5 m c)) (a6 m c) (a7 m c)
    Cert.ReferenceIdeal.dot_S100000x128_S128x2_S100000x2_1_0_0_1_n_n rfl
    Cert.ReferenceIdeal.Gen.concatenates_S100000x64_S100000x64_S100000x128_d1
    slices_S128x2_S64x2_0_0 slices_S128x2_S64x2_64_0
    Cert.ReferenceIdeal.Gen.bcast_S2_S1x2_1 Cert.ReferenceIdeal.Gen.bcast_S1x2_S100000x2_0_1).symm

end Cert.KernelIdeal.Val

end
-- ==== Proof.lean ====
/-
  The certificate of the two-layer mean-aggregation graph network: the kernel's program against its jnp reference, over the
  extended reals.

  Both programs gather each edge's source-node features, scale them by the edge's attributes, scatter-add them onto the
  destination nodes and turn the sums into means with the destination's degree count clipped at one; then they project
  [features | mean] through a weight matrix and add a bias, with a rectifier after the first of the two layers. The
  gathers and scatter-adds are the same host operations in both. They differ in three places, none of which matters on the
  extended reals:
    * the kernel multiplies the edge messages in a gridded region, 6400 edges a point: the blocks tile the edges, so the
      region leaves the elementwise product;
    * the kernel scales the sums by the reciprocal 1 / max(cnt, 1) where the reference divides by max(cnt, 1): the divisor is
      at least one, hence not zero, and both are the product with its inverse;
    * the kernel contracts the features against the upper half of the weights and the means against the lower half, 5000
      nodes a point, where the reference contracts the joined row against the whole matrix: the sum over the joined
      axis splits at the seam, and rounding to bf16 before the products is the identity here.
  No step uses the inputs' finiteness: only commutativity and associativity of the extended reals' sum are used.

  The frames of the two kernel programs are the generated ones; the reference's frame is its generated run with the result
  dropped. The idealization rewrote nothing, so its preservation claim is trivial. For the value claim the kernel's run is
  the frame run re-posted with the result buffer named, that buffer walked back through the program's eight stretches to
  the reference's own result term of the launch arguments.
-/
import proofs.«180362_j1915555414503_1_alg».proof.Defs
import proofs.«180362_j1915555414503_1_alg».proof.Proof.Gen.Kernel
import proofs.«180362_j1915555414503_1_alg».proof.Proof.Gen.Kernel.Skeleton
import proofs.«180362_j1915555414503_1_alg».proof.Proof.Gen.Kernel.Launch
import proofs.«180362_j1915555414503_1_alg».proof.Proof.Gen.Kernel.Points
import proofs.«180362_j1915555414503_1_alg».proof.Proof.Gen.Kernel.Frame
import proofs.«180362_j1915555414503_1_alg».proof.Proof.Gen.KernelIdeal
import proofs.«180362_j1915555414503_1_alg».proof.Proof.Gen.KernelIdeal.Skeleton
import proofs.«180362_j1915555414503_1_alg».proof.Proof.Gen.KernelIdeal.Launch
import proofs.«180362_j1915555414503_1_alg».proof.Proof.Gen.KernelIdeal.Points
import proofs.«180362_j1915555414503_1_alg».proof.Proof.Gen.KernelIdeal.Frame
import proofs.«180362_j1915555414503_1_alg».proof.Proof.Gen.ReferenceIdeal
import proofs.«180362_j1915555414503_1_alg».proof.Proof.Gen.ReferenceIdeal.Run
import proofs.«180362_j1915555414503_1_alg».proof.Proof.Gen.ReferenceIdeal.Read
import proofs.«180362_j1915555414503_1_alg».proof.Proof.Gen.Pre_finite_inputs
import proofs.«180362_j1915555414503_1_alg».proof.Proof.KernelRun
import proofs.«180362_j1915555414503_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the reference's result term of the kernel's launch
    arguments: the kernel by its walked run, the reference by its generated run and the agreement. -/
theorem algebraic : Cert.algebraic_KernelIdeal_ReferenceIdeal := by
  intro m ρ m' ρ' _ hagree
  refine ⟨fun c => Cert.ReferenceIdeal.Read.val_main_v58 (F := Ideal) (Cert.KernelIdeal.Val.a0 m c) (Cert.KernelIdeal.Val.a1 m c)
      (Cert.KernelIdeal.Val.a2 m c) (Cert.KernelIdeal.Val.a3 m c) (Cert.KernelIdeal.Val.a4 m c) (Cert.KernelIdeal.Val.a5 m c)
      (Cert.KernelIdeal.Val.a6 m c) (Cert.KernelIdeal.Val.a7 m c), ?_, ?_⟩
  · exact (θ_run Cert.KernelIdeal.defs _ _).mono
      (fun r h c => ⟨(h c).1.trans (Cert.KernelIdeal.Val.W8_v45 m ρ c), (h c).2⟩) (Cert.KernelIdeal.Val.run_out m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
